-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S4096x1 : Shape := ⟨2, ![4096, 1]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) (main_arg1 : FVec F S4096x8192 .f32) (main_arg2 : IVec S4096x1 32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  main_v8
-- ==== Kernel.lean ====
abbrev S4096x8192 : Shape := ⟨2, ![4096, 8192]⟩
abbrev S4096x1 : Shape := ⟨2, ![4096, 1]⟩
abbrev S1x1 : Shape := ⟨2, ![1, 1]⟩
abbrev S128x8192 : Shape := ⟨2, ![128, 8192]⟩
abbrev S128x1 : Shape := ⟨2, ![128, 1]⟩
abbrev S128 : Shape := ⟨1, ![128]⟩
abbrev S1x128x1 : Shape := ⟨3, ![1, 128, 1]⟩
abbrev S1 : Shape := ⟨1, ![1]⟩
abbrev S1x1x1 : Shape := ⟨3, ![1, 1, 1]⟩
abbrev S_ : Shape := ⟨0, ![]⟩

abbrev nBuf : Space → Nat
  | .hbm => 5
  | .vmem => 7
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S4096x1, .i32⟩
  | .hbm, ⟨3, _⟩ => ⟨S1x1, .f32⟩
  | .hbm, ⟨4, _⟩ => ⟨S_, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S128x1, .i32⟩
  | .local _ .vmem, ⟨5, _⟩ => ⟨S128x1, .i32⟩
  | .local _ .vmem, ⟨6, _⟩ => ⟨S1x1, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S128x8192_S128x8192_0_0 : ∀ a, (![0, 0] : Fin 2 → Nat) a + S128x8192.size a ≤ S128x8192.size a
  h_S128x8192 : 0 < S128x8192.numel
  reduces_S128x8192_S128 : S128x8192.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  shapeCasts_S1x1_S1x1 : S1x1.ShapeCasts S1x1
  shapeCasts_S128x1_S1x128x1 : S128x1.ShapeCasts S1x128x1
  reduces_S1x128x1_S1 : S1x128x1.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S4096x8192.size a
  hwx0_0 : ∀ i : grid0.Coords, EltTy.bits .f32 = 32 ∨ (Rect.block (s := S4096x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S4096x8192.size a
  hwx0_1 : ∀ i : grid0.Coords, EltTy.bits .f32 = 32 ∨ (Rect.block (s := S4096x8192) S128x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S4096x1.size a
  hwx0_2 : ∀ i : grid0.Coords, EltTy.bits .i32 = 32 ∨ (Rect.block (s := S4096x1) S128x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S4096x1 : Shape := ⟨2, ![4096, 1]⟩
abbrev S_ : Shape := ⟨0, ![]⟩
abbrev S4096 : Shape := ⟨1, ![4096]⟩

abbrev nBuf : Space → Nat
  | .hbm => 32
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S4096x1, .i32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .i1⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S4096, .i32⟩
  | .hbm, ⟨22, _⟩ => ⟨S4096, .f32⟩
  | .hbm, ⟨23, _⟩ => ⟨S_, .f32⟩
  | .hbm, ⟨24, _⟩ => ⟨S4096, .f32⟩
  | .hbm, ⟨25, _⟩ => ⟨S4096, .i1⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S_, .f32⟩
  | .hbm, ⟨31, _⟩ => ⟨S_, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)
  reducesTo_S4096x8192_S4096_d1 : S4096x8192.ReducesTo [1] S4096
  h_S_ : 0 < S_.numel
  bcast_S_S4096 : S_.BroadcastsInDim S4096 (![] : Fin 0 → Fin S4096.rank)
  shapeCasts_S4096x1_S4096 : S4096x1.ShapeCasts S4096
  reducesTo_S4096_S_d0 : S4096.ReducesTo [0] S_

variable [Facts₀]

class Facts : Prop extends Facts₀ where

variable [Facts]
-- ==== Proof.MaskedHuber.lean ====
/-
  The mathematics both programs compute, stated once over plain index types, and the two algebraic facts that join
  their two spellings.

  For arrays `X Y` of 4096 × 8192 extended reals and a column `M` of 4096 machine integers:
    * `huber a b` is the smooth-L1 term of the difference `d = a - b`: `(1/2 · d) · d` where `|d| < 1`, else `|d| - 1/2`
      (`|d|` is `max d (-d)`; the two constants are kept as the words both programs spell);
    * `rowSum X Y r` is the sum of the row's 8192 terms;
    * a row's contribution is its mean times its weight `M r` (the integer read as a real) where that weight is
      positive, else zero. The mean is spelled `rowSum · 2⁻¹³` by one program and `(0 + rowSum) / 8192` by the
      other: `scaled_eq` says these are one extended real, at the infinities too, since `2⁻¹³` is exactly `1/8192`;
    * the result is the sum of the 4096 contributions. One program adds them row by row, the other in 32 blocks of
      128 consecutive rows, block after block: `sum_blocks` says the two groupings agree, by commutativity and
      associativity of addition alone (no finiteness is needed anywhere).
-/
import Idealize.ShloMosaic.PureOps.Ideal
import Idealize.ShloMosaic.PureOps.Ideal.Laws
import Idealize.ShloMosaic.Lib.ValueIdx
import Mathlib.Algebra.BigOperators.Fin
import Mathlib.Algebra.BigOperators.Group.Finset.Basic

noncomputable section

namespace Cert.MaskedHuber

open Idealize.ShloMosaic

/-! ## The constants -/

/-- The word `8192.0` denotes the real 8192. -/
theorem ofBits_8192 : Ideal.ofBits .f32 0x46000000#32 = ((8192 : ℝ) : EReal) := by
  simp [Ideal.ofBits, Ideal.ieee, -EReal.coe_mul]; norm_num

/-- The word `1.22070313E-4` denotes exactly `2⁻¹³ = 1/8192`. -/
theorem ofBits_inv_8192 : Ideal.ofBits .f32 0x39000000#32 = ((1 / 8192 : ℝ) : EReal) := by
  simp [Ideal.ofBits, Ideal.ieee, -EReal.coe_mul]; norm_num

/-- A sum scaled by the word `2⁻¹³` is the quotient by the word `8192` of that sum started from the zero word. -/
theorem scaled_eq (s : EReal) :
    s * Ideal.ofBits .f32 0x39000000#32
      = Ideal.div (Ideal.ofBits .f32 0x00000000#32 + s) (Ideal.ofBits .f32 0x46000000#32) := by
  rw [Ideal.ofBits_zero_f32, zero_add, ofBits_8192, ofBits_inv_8192,
    Ideal.div_coe (by norm_num : (8192 : ℝ) ≠ 0)]

/-! ## The terms -/

/-- The smooth-L1 term of a pair. -/
def huber (a b : EReal) : EReal :=
  Scalar.select (Ideal.cmp .olt (max (a - b) (-(a - b))) (Ideal.ofBits .f32 0x3F800000#32))
    (Ideal.ofBits .f32 0x3F000000#32 * (a - b) * (a - b))
    (max (a - b) (-(a - b)) - Ideal.ofBits .f32 0x3F000000#32)

/-- A machine integer read as a real. -/
def weight (w : BitVec 32) : EReal := ((w.toInt : ℝ) : EReal)

/-- A row's contribution from its (already scaled) mean `p` and its weight word `w`. -/
def contrib (p : EReal) (w : BitVec 32) : EReal :=
  Scalar.select (Ideal.cmp .ogt (weight w) (Ideal.ofBits .f32 0x00000000#32)) (p * weight w)
    (Ideal.ofBits .f32 0x00000000#32)

/-- The contribution of row `r`: the sum of its smooth-L1 terms, scaled by `2⁻¹³`, weighted. -/
def rowTerm (X Y : Fin 4096 → Fin 8192 → EReal) (M : Fin 4096 → BitVec 32) (r : Fin 4096) : EReal :=
  contrib ((∑ k : Fin 8192, huber (X r k) (Y r k)) * Ideal.ofBits .f32 0x39000000#32) (M r)

/-- The whole loss: the sum of the rows' contributions, started from the zero word. -/
def total (X Y : Fin 4096 → Fin 8192 → EReal) (M : Fin 4096 → BitVec 32) : EReal :=
  Ideal.ofBits .f32 0x00000000#32 + ∑ r : Fin 4096, rowTerm X Y M r

/-! ## Regrouping the rows into blocks -/

/-- Row `128 · s + q` as a natural-number index: a function on the rows extended by zero past the last row. -/
def ext (g : Fin 4096 → EReal) (r : ℕ) : EReal := if h : r < 4096 then g ⟨r, h⟩ else 0

theorem ext_of_lt (g : Fin 4096 → EReal) (r : ℕ) (h : r < 4096) : ext g r = g ⟨r, h⟩ := dif_pos h

/-- Rows as (block, row inside the block). -/
def blockEquiv : Fin 32 × Fin 128 ≃ Fin 4096 where
  toFun p := ⟨128 * p.1.val + p.2.val, by have := p.1.isLt; have := p.2.isLt; omega⟩
  invFun r := (⟨r.val / 128, by have := r.isLt; omega⟩, ⟨r.val % 128, Nat.mod_lt _ (by norm_num)⟩)
  left_inv p := by
    obtain ⟨⟨a, ha⟩, ⟨b, hb⟩⟩ := p
    apply Prod.ext <;> apply Fin.ext <;> dsimp only <;> omega
  right_inv r := by
    apply Fin.ext; dsimp only; omega

/-- The sum of one block of 128 consecutive rows. -/
def blockSum (g : Fin 4096 → EReal) (s : ℕ) : EReal := ∑ q : Fin 128, ext g (128 * s + q.val)

/-- The 32 block sums add up to the sum over all rows. -/
theorem sum_blocks (g : Fin 4096 → EReal) :
    ∑ s ∈ Finset.range 32, blockSum g s = ∑ r : Fin 4096, g r := by
  rw [← Fin.sum_univ_eq_sum_range (fun s => blockSum g s) 32, ← blockEquiv.sum_comp, Fintype.sum_prod_type]
  refine Finset.sum_congr rfl fun t _ => Finset.sum_congr rfl fun q _ => ?_
  have := t.isLt; have := q.isLt
  exact ext_of_lt g _ (by omega)

/-- The running total after blocks `0 … n`, started from `z`, block after block. -/
theorem running_succ (z : EReal) (B : ℕ → EReal) (n : ℕ) :
    (z + ∑ s ∈ Finset.range (n + 1), B s) + B (n + 1) = z + ∑ s ∈ Finset.range (n + 1 + 1), B s := by
  rw [Finset.sum_range_succ _ (n + 1), add_assoc]

end Cert.MaskedHuber

end
-- ==== Proof.Reference.lean ====
/-
  The reference's result as one function of its three arguments.

  Read one operation at a time, the reference forms per element the smooth-L1 term of the difference, sums each row,
  divides the row sum by 8192, multiplies by the row's weight where the weight is positive (else takes zero), and sums
  the 4096 rows from zero. Its quotient `(0 + s) / 8192` is the specification's product `s · 2⁻¹³`
  (`MaskedHuber.scaled_eq`), so the result is `MaskedHuber.total` of the arguments read by coordinates.
-/
import proofs.«159005_j88596585382237_1_alg».proof.Proof.ReferenceRun
import proofs.«159005_j88596585382237_1_alg».proof.Proof.ReferenceRead
import proofs.«159005_j88596585382237_1_alg».proof.Proof.MaskedHuber

noncomputable section

namespace Cert.ReferenceIdeal.RefValue

open Idealize.ShloMosaic Idealize.ShloMosaic.ValueIdx
open Cert.ReferenceIdeal Cert.ReferenceIdeal.Gen Cert.ReferenceIdeal.ReadP Cert.MaskedHuber

/-- A 4096 × 8192 array read by its two coordinates. -/
abbrev mat (x : (⟨S4096x8192, .f32⟩ : BufTy).Contents (Elt Ideal)) : Fin 4096 → Fin 8192 → EReal :=
  fun r k => x (ix2 r k)
/-- The 4096 × 1 column of weight words read by its row. -/
abbrev col (w : (⟨S4096x1, .i32⟩ : BufTy).Contents (Elt Ideal)) : Fin 4096 → BitVec 32 :=
  fun r => w (ix2 r (0 : Fin 1))

/-- The selected element term is the smooth-L1 term of the two arguments' entries. -/
theorem elem_eq (x0 x1 : (⟨S4096x8192, .f32⟩ : BufTy).Contents (Elt Ideal)) (i : S4096x8192.Idx) :
    val_main_v9 (F := Ideal) x0 x1 i = huber (x0 i) (x1 i) := by
  rw [val_main_v9_apply, val_main_v3_apply, val_main_v6_apply, val_main_v8_apply, val_main_v5_apply,
    val_main_v1_apply, val_main_v0_apply, val_main_v2_apply, val_main_v4_apply, val_main_v7_apply]
  rfl

/-- Row `r`'s selected contribution is the specification's. -/
theorem row_eq (x0 x1 : (⟨S4096x8192, .f32⟩ : BufTy).Contents (Elt Ideal))
    (x2 : (⟨S4096x1, .i32⟩ : BufTy).Contents (Elt Ideal)) (r : Fin 4096) :
    val_main_v19 (F := Ideal) x0 x1 x2 (ix1 r) = rowTerm (mat x0) (mat x1) (col x2) r := by
  have hk : ∀ k : Fin 8192, idx_main_v10 (ix1 r) k = ix2 r k := fun k => funext fun a => by
    match a with
    | ⟨0, _⟩ => rfl
    | ⟨1, _⟩ => rfl
  have hm : idx_main_v13 (ix1 r) = ix2 r (0 : Fin 1) := funext fun a => by
    match a with
    | ⟨0, _⟩ => exact Fin.ext (Nat.div_one _)
    | ⟨1, _⟩ => rfl
  rw [val_main_v19_apply, val_main_v16_apply, val_main_v17_apply, val_main_v12_apply, val_main_v14_apply,
    val_main_v13_apply, val_main_v10_apply, val_main_v11_apply, val_main_v15_apply, val_main_v18_apply, hm]
  simp only [elem_eq, hk]
  unfold rowTerm contrib weight
  rw [scaled_eq]
  rfl

/-- The indices of a [4096] vector are its 4096 coordinates. -/
def rowEquiv : Fin 4096 ≃ S4096.Idx where
  toFun r := ix1 r
  invFun j := ⟨(j 0).val, (j 0).isLt⟩
  left_inv r := rfl
  right_inv j := by
    funext a
    match a with
    | ⟨0, _⟩ => rfl

/-- The reference's result, at its one index, is the specification's total. -/
theorem result_eq (x0 x1 : (⟨S4096x8192, .f32⟩ : BufTy).Contents (Elt Ideal))
    (x2 : (⟨S4096x1, .i32⟩ : BufTy).Contents (Elt Ideal)) (i : S_.Idx) :
    val_main_v20 (F := Ideal) x0 x1 x2 i = total (mat x0) (mat x1) (col x2) := by
  rw [val_main_v20_apply]
  unfold total
  refine congrArg₂ (· + ·) rfl ?_
  rw [← rowEquiv.sum_comp]
  exact Finset.sum_congr rfl fun r _ => row_eq x0 x1 x2 r

end Cert.ReferenceIdeal.RefValue

end
-- ==== Proof.KernelPieces.lean ====
/-
  What each of the body's two control cases leaves in the one-entry output buffer, as a value.

  At the first grid point the body stores the zero entry, reads it back, and stores that entry plus the point's
  block total; at every later point it reads the entry the point before left and stores that plus the block total.
  Both are the same pure function `k0_pay2` of the three input blocks and of the entry read: at the first point the
  entry read is the zero entry `k0_pay1`, later it is the carried one.
-/
import proofs.«159005_j88596585382237_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

/-- The zero offsets of a rank-2 access, however spelt. -/
theorem hz : (![0, 0] : Fin 2 → Nat) = fun _ => 0 := funext fun a => by fin_cases a <;> rfl

/-- A later point: the one store's value over the carried entry `xo`. -/
theorem out_B (c : Dev nD) (i : grid0.Coords) (a1 : Memref sig .tc .vmem S128x8192 .f32) (h1 : a1.IsWhole)
    (a2 : Memref sig .tc .vmem S128x8192 .f32) (h2 : a2.IsWhole) (a3 : Memref sig .tc .vmem S128x1 .i32) (h3 : a3.IsWhole)
    (a4 : Memref sig .tc .vmem S1x1 .f32) (h4 : a4.IsWhole) (hc : ¬cond0_0 i)
    (x0 x1 : Vec F S128x8192 .f32) (x2 : Vec F S128x1 .i32) (xo : Vec F S1x1 .f32) :
    out0_B_3 c i a1 h1 a2 h2 a3 h3 a4 h4 hc x0 x1 x2 xo = k0_pay2 x0 x1 x2 xo := by
  unfold out0_B_3
  rw [View.read_writes_eq_canon _ _ _ (cover0_B_3 c i a1 h1 a2 h2 a3 h3 a4 h4 hc x0 x1 x2 xo)]
  unfold kernelRun0_B
  dsimp only
  sl_unfold_words
  rw [View.canon_unit_zero hz]
  simp only [View.readAt_eq_ld, h1.read_unread, h2.read_unread, h3.read_unread, h4.read_unread,
    View.ld_unit_zero (S := S128x8192) hz, View.ld_unit_zero (S := S128x1) hz, View.ld_unit_zero (S := S1x1) hz]

/-- The first point: the second store's value over the zero entry the first store left. -/
theorem out_A (c : Dev nD) (i : grid0.Coords) (a1 : Memref sig .tc .vmem S128x8192 .f32) (h1 : a1.IsWhole)
    (a2 : Memref sig .tc .vmem S128x8192 .f32) (h2 : a2.IsWhole) (a3 : Memref sig .tc .vmem S128x1 .i32) (h3 : a3.IsWhole)
    (a4 : Memref sig .tc .vmem S1x1 .f32) (h4 : a4.IsWhole) (hc : cond0_0 i)
    (x0 x1 : Vec F S128x8192 .f32) (x2 : Vec F S128x1 .i32) :
    out0_A_3 c i a1 h1 a2 h2 a3 h3 a4 h4 hc x0 x1 x2 = k0_pay2 x0 x1 x2 (k0_pay1 (F := F)) := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread,
    View.ld_unit_zero (S := S128x8192) hz, View.ld_unit_zero (S := S128x1) hz, View.ld_unit_zero (S := S1x1) hz]

end Cert.KernelIdeal.Pieces

end
-- ==== Proof.BlockSum.lean ====
/-
  One grid point's arithmetic, read at an index over the extended reals.

  A point holds 128 rows. From the 128 × 8192 block `e` of per-element terms and the 128 weight words `w` it forms,
  per row `q`, the row sum `∑ₖ e(q, k)`, scales it by a constant `c`, multiplies by the weight read as a real where
  that weight exceeds `z` (else takes `z`) — `row_entry` — and adds the total of these 128 numbers to the one-entry
  accumulator — `acc_add_column`. The reshapes between [128], [128, 1], [1, 128, 1], [1], [1, 1, 1] and [1, 1] only
  rename positions: each is read through the equality of row-major positions.
-/
import Idealize.ShloMosaic.PureOps.Ideal
import Idealize.ShloMosaic.PureOps.Ideal.Laws
import Idealize.ShloMosaic.Lib.ValueIdx
import Idealize.ShloMosaic.Lib.Pipeline.Value
import Mathlib.Algebra.BigOperators.Group.Finset.Basic

noncomputable section

namespace Cert.BlockSum

open Idealize.ShloMosaic Idealize.ShloMosaic.ValueIdx

abbrev S128x8192 : Shape := ⟨2, ![128, 8192]⟩
abbrev S128x1 : Shape := ⟨2, ![128, 1]⟩
abbrev S128 : Shape := ⟨1, ![128]⟩
abbrev S1x128x1 : Shape := ⟨3, ![1, 128, 1]⟩
abbrev S1 : Shape := ⟨1, ![1]⟩
abbrev S1x1x1 : Shape := ⟨3, ![1, 1, 1]⟩
abbrev S1x1 : Shape := ⟨2, ![1, 1]⟩

/-- The positions of a [1, 128, 1] vector are its 128 middle coordinates. -/
def midEquiv : Fin 128 ≃ S1x128x1.Idx where
  toFun q := ix3 (0 : Fin 1) q (0 : Fin 1)
  invFun j := ⟨(j 1).val, (j 1).isLt⟩
  left_inv q := rfl
  right_inv j := by
    funext a
    match a with
    | ⟨0, _⟩ => exact Fin.ext (by have := (j 0).isLt; show 0 = (j 0).val; simp at this; omega)
    | ⟨1, _⟩ => rfl
    | ⟨2, _⟩ => exact Fin.ext (by have := (j 2).isLt; show 0 = (j 2).val; simp at this; omega)

/-- The row sum of a block at row `q`, the block reduced along its second axis and recast as a column. -/
theorem rowsum_apply (e : FVec Ideal S128x8192 .f32) (hr : S128x8192.Reduces [1] S128) (hφ : FKind.Formats .f32)
    (hacc : (0x00000000#32 : BitVec 32) = 0x00000000#32) (hc : S128.ShapeCasts S128x1) (q : Fin 128) :
    shapeCast S128x1 (multiReduction (F := Ideal) .add [1] S128 e 0x00000000#32 hr hφ hacc) hc (ix2 q (0 : Fin 1))
      = ∑ k : Fin 8192, e (ix2 q k) := by
  refine (shapeCast_apply _ hc (ix2 q (0 : Fin 1)) (ix1 q) (by
    rw [Shape.rowMajor_val_one, Shape.rowMajor_val_two]; show q.val = q.val * 1 + 0; omega)).trans ?_
  refine (Ideal.multiReduction_add_single e 0x00000000#32 hr hφ hacc (ix1 q)).trans ?_
  refine Finset.sum_congr rfl fun k _ => congrArg e (funext fun a => Fin.ext ?_)
  match a with
  | ⟨0, _⟩ => rfl
  | ⟨1, _⟩ => rfl

/-- A row's entry: where its weight exceeds `z`, its scaled row sum times the weight, else `z`. -/
theorem row_entry (e : FVec Ideal S128x8192 .f32) (w : IVec S128x1 32) (z c : Ideal .f32)
    (hr : S128x8192.Reduces [1] S128) (hφ : FKind.Formats .f32)
    (hacc : (0x00000000#32 : BitVec 32) = 0x00000000#32) (hc : S128.ShapeCasts S128x1) (q : Fin 128) :
    select (cmpf .ogt (sitofp (F := Ideal) .f32 w) (broadcast S128x1 z))
        (mulf (mulf (shapeCast S128x1 (multiReduction (F := Ideal) .add [1] S128 e 0x00000000#32 hr hφ hacc) hc)
          (broadcast S128x1 c)) (sitofp (F := Ideal) .f32 w))
        (broadcast S128x1 z) (ix2 q (0 : Fin 1))
      = Scalar.select (Ideal.cmp .ogt (((w (ix2 q (0 : Fin 1))).toInt : ℝ) : EReal) z)
          ((∑ k : Fin 8192, e (ix2 q k)) * c * (((w (ix2 q (0 : Fin 1))).toInt : ℝ) : EReal)) z := by
  show Scalar.select (Ideal.cmp .ogt (((w (ix2 q (0 : Fin 1))).toInt : ℝ) : EReal) z)
      (shapeCast S128x1 (multiReduction (F := Ideal) .add [1] S128 e 0x00000000#32 hr hφ hacc) hc (ix2 q (0 : Fin 1)) * c
        * (((w (ix2 q (0 : Fin 1))).toInt : ℝ) : EReal)) z = _
  rw [rowsum_apply e hr hφ hacc hc q]

/-- The accumulator's update: its entry plus the total of the column `v`. -/
theorem acc_add_column (v : FVec Ideal S128x1 .f32) (acc : FVec Ideal S1x1 .f32)
    (h11 : S1x1.ShapeCasts S1x1) (h3 : S128x1.ShapeCasts S1x128x1) (hr : S1x128x1.Reduces [1, 2] S1)
    (hφ : FKind.Formats .f32) (hacc : (0x00000000#32 : BitVec 32) = 0x00000000#32) (h1 : S1.ShapeCasts S1x1x1)
    (hp : ∀ a, (![0, 0, 0] : Fin 3 → Nat) a < S1x1x1.size a) (y : S1x1.Idx) :
    addf (shapeCast S1x1 acc h11)
        (broadcast S1x1 (extractAt ![0, 0, 0]
          (shapeCast S1x1x1 (multiReduction (F := Ideal) .add [1, 2] S1 (shapeCast S1x128x1 v h3) 0x00000000#32 hr hφ hacc) h1) hp)) y
      = acc y + ∑ q : Fin 128, v (ix2 q (0 : Fin 1)) := by
  show shapeCast S1x1 acc h11 y + shapeCast S1x1x1 (multiReduction (F := Ideal) .add [1, 2] S1 (shapeCast S1x128x1 v h3) 0x00000000#32 hr hφ hacc) h1
      (fun a => ⟨(![0, 0, 0] : Fin 3 → Nat) a, hp a⟩) = _
  rw [shapeCast_self]
  refine congrArg (acc y + ·) ?_
  refine (shapeCast_apply _ h1 _ (ix1 (0 : Fin 1)) (by
    rw [Shape.rowMajor_val_one, Shape.rowMajor_val_three]; rfl)).trans ?_
  refine (Ideal.multiReduction_add_total (shapeCast S1x128x1 v h3) 0x00000000#32 hr (fun b => by
    match b with | ⟨0, _⟩ => rfl) hφ hacc (ix1 (0 : Fin 1))).trans ?_
  rw [← midEquiv.sum_comp]
  refine Finset.sum_congr rfl fun q _ => ?_
  exact shapeCast_apply v h3 (midEquiv q) (ix2 q (0 : Fin 1)) (by
    rw [Shape.rowMajor_val_two, Shape.rowMajor_val_three]
    show q.val * 1 + 0 = ((0 : Fin 1).val * 128 + q.val) * 1 + (0 : Fin 1).val
    simp)

end Cert.BlockSum

end
-- ==== Proof.KernelBlock.lean ====
/-
  The body's stored value at the ideal values, read at its one index: the entry read, plus the sum over the block's
  128 rows of each row's contribution (the row's smooth-L1 sum scaled by `2⁻¹³`, times its weight where positive).
-/
import proofs.«159005_j88596585382237_1_alg».proof.Proof.Gen.KernelIdeal.Skeleton
import proofs.«159005_j88596585382237_1_alg».proof.Proof.BlockSum
import proofs.«159005_j88596585382237_1_alg».proof.Proof.MaskedHuber

noncomputable section

namespace Cert.KernelIdeal.Block

open Idealize.ShloMosaic Idealize.ShloMosaic.ValueIdx
open Cert.KernelIdeal Cert.KernelIdeal.Gen Cert.MaskedHuber

/-- The entry the first point starts from is the zero word. -/
theorem zero_entry (y : S1x1.Idx) : k0_pay1 (F := Ideal) y = Ideal.ofBits .f32 0x00000000#32 := rfl

/-- The stored value at its index: the entry read plus the block's 128 contributions. -/
theorem pay_apply (x0 x1 : Vec Ideal S128x8192 .f32) (x2 : Vec Ideal S128x1 .i32) (acc : Vec Ideal S1x1 .f32) (y : S1x1.Idx) :
    k0_pay2 (F := Ideal) x0 x1 x2 acc y
      = acc y + ∑ q : Fin 128,
          contrib ((∑ k : Fin 8192, huber (x0 (ix2 q k)) (x1 (ix2 q k))) * Ideal.ofBits .f32 0x39000000#32)
            (x2 (ix2 q (0 : Fin 1))) := by
  unfold k0_pay2
  refine (Cert.BlockSum.acc_add_column _ acc _ _ _ _ _ _ _ y).trans ?_
  refine congrArg (acc y + ·) (Finset.sum_congr rfl fun q _ => ?_)
  refine (Cert.BlockSum.row_entry _ x2 _ _ _ _ _ _ q).trans ?_
  rfl

end Cert.KernelIdeal.Block

end
-- ==== Proof.KernelValue.lean ====
/-
  The kernel's result as one function of its three arguments.

  Point `t` of the 32 reads rows `128·t … 128·t + 127` of the two matrices and of the weight column, and adds the sum of
  those rows' contributions to the one-entry output it carries from point to point (started from the zero word at
  point 0). So after point `n` the entry is the zero word plus the first `n + 1` block sums (`entry_eq`, by induction
  on the point), after the last point it is the specification's total (`MaskedHuber.sum_blocks`), the single
  write-back at the last point puts it in the 1 × 1 result array, and the reshape after the call reads that array's
  entry as the scalar result.
-/
import proofs.«159005_j88596585382237_1_alg».proof.Proof.Gen.KernelIdeal.Frame
import proofs.«159005_j88596585382237_1_alg».proof.Proof.KernelPieces
import proofs.«159005_j88596585382237_1_alg».proof.Proof.KernelBlock
import proofs.«159005_j88596585382237_1_alg».proof.Proof.MaskedHuber
import Idealize.ShloMosaic.Lib.Pipeline.Value
import Idealize.ShloMosaic.Lib.StableHlo.Run
import Idealize.ShloMosaic.Lib.Tactic

noncomputable section

namespace Cert.KernelIdeal.Loss

open Idealize.ShloMosaic Idealize.ShloMosaic.TcCoe Idealize.ShloMosaic.ValueIdx Idealize.SL.Sem
open Idealize.ShloMosaic.Pipeline (Dat)
open Cert.KernelIdeal Cert.KernelIdeal.Gen Cert.MaskedHuber

variable (m : (ℓ : Loc nD τ sig) → Buf (Elt Ideal) ℓ) (ρ : Dev nD → PrngReg)

/-! ## The arguments by coordinates, the blocks at their literal types -/

abbrev X (c : Dev nD) : Fin 4096 → Fin 8192 → EReal := fun r k => m ((c : Thread nD τ).loc main_arg0) (ix2 r k)
abbrev Y (c : Dev nD) : Fin 4096 → Fin 8192 → EReal := fun r k => m ((c : Thread nD τ).loc main_arg1) (ix2 r k)
abbrev W (c : Dev nD) : Fin 4096 → BitVec 32 := fun r => m ((c : Thread nD τ).loc main_arg2) (ix2 r (0 : Fin 1))

abbrev xblk (c : Dev nD) (t : Fin cfg0.N) : Vec Ideal S128x8192 .f32 := iblk m c 0 t
abbrev yblk (c : Dev nD) (t : Fin cfg0.N) : Vec Ideal S128x8192 .f32 := iblk m c 1 t
abbrev wblk (c : Dev nD) (t : Fin cfg0.N) : Vec Ideal S128x1 .i32 := iblk m c 2 t

/-- Each input window's block index at point `t` is `(t, 0)`. -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem index2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- Row `q` of point `t`'s block of the first matrix is row `128·t + q` of the matrix. -/
theorem xblk_apply (c : Dev nD) (t : Fin cfg0.N) (q : Fin 128) (k : Fin 8192) (h : 128 * t.val + q.val < 4096) :
    xblk m c t (ix2 q k) = X m c ⟨128 * t.val + q.val, h⟩ k := by
  show iblk m c 0 t (ix2 q k) = _
  unfold iblk
  rw [View.read_apply]
  show V m c main_arg0 _ = V m c main_arg0 (ix2 ⟨128 * t.val + q.val, h⟩ k)
  refine congrArg (V m c main_arg0) (funext fun a => Fin.ext ?_)
  match a with
  | ⟨0, _⟩ =>
    show win0_0.index t (0 : Fin 2) * 128 + 1 * q.val = 128 * t.val + q.val
    rw [(index0 t).1]; omega
  | ⟨1, _⟩ =>
    show win0_0.index t (1 : Fin 2) * 8192 + 1 * k.val = k.val
    rw [(index0 t).2]; omega

/-- The same for the second matrix. -/
theorem yblk_apply (c : Dev nD) (t : Fin cfg0.N) (q : Fin 128) (k : Fin 8192) (h : 128 * t.val + q.val < 4096) :
    yblk m c t (ix2 q k) = Y m c ⟨128 * t.val + q.val, h⟩ k := by
  show iblk m c 1 t (ix2 q k) = _
  unfold iblk
  rw [View.read_apply]
  show V m c main_arg1 _ = V m c main_arg1 (ix2 ⟨128 * t.val + q.val, h⟩ k)
  refine congrArg (V m c main_arg1) (funext fun a => Fin.ext ?_)
  match a with
  | ⟨0, _⟩ =>
    show win0_1.index t (0 : Fin 2) * 128 + 1 * q.val = 128 * t.val + q.val
    rw [(index1 t).1]; omega
  | ⟨1, _⟩ =>
    show win0_1.index t (1 : Fin 2) * 8192 + 1 * k.val = k.val
    rw [(index1 t).2]; omega

/-- And for the weight column. -/
theorem wblk_apply (c : Dev nD) (t : Fin cfg0.N) (q : Fin 128) (h : 128 * t.val + q.val < 4096) :
    wblk m c t (ix2 q (0 : Fin 1)) = W m c ⟨128 * t.val + q.val, h⟩ := by
  show iblk m c 2 t (ix2 q (0 : Fin 1)) = _
  unfold iblk
  rw [View.read_apply]
  show V m c main_arg2 _ = V m c main_arg2 (ix2 ⟨128 * t.val + q.val, h⟩ (0 : Fin 1))
  refine congrArg (V m c main_arg2) (funext fun a => Fin.ext ?_)
  match a with
  | ⟨0, _⟩ =>
    show win0_2.index t (0 : Fin 2) * 128 + 1 * q.val = 128 * t.val + q.val
    rw [(index2 t).1]; omega
  | ⟨1, _⟩ =>
    show win0_2.index t (1 : Fin 2) * 1 + 1 * 0 = 0
    rw [(index2 t).2]

/-! ## One point's block sum -/

/-- The rows' contributions. -/
abbrev rows (c : Dev nD) : Fin 4096 → EReal := rowTerm (X m c) (Y m c) (W m c)

/-- What point `t` adds is the specification's block sum `t`. -/
theorem block_eq (c : Dev nD) (t : Fin cfg0.N) :
    ∑ q : Fin 128, contrib ((∑ k : Fin 8192, huber (xblk m c t (ix2 q k)) (yblk m c t (ix2 q k)))
        * Ideal.ofBits .f32 0x39000000#32) (wblk m c t (ix2 q (0 : Fin 1)))
      = blockSum (rows m c) t.val := by
  have hN : t.val < 32 := lt_of_lt_of_eq t.isLt (show cfg0.N = 32 from N_0)
  unfold blockSum
  refine Finset.sum_congr rfl fun q _ => ?_
  have hq : 128 * t.val + q.val < 4096 := by have := q.isLt; omega
  rw [ext_of_lt _ _ hq, wblk_apply m c t q hq]
  refine congrArg (fun s => contrib (s * Ideal.ofBits .f32 0x39000000#32) (W m c ⟨128 * t.val + q.val, hq⟩))
    (Finset.sum_congr rfl fun k _ => ?_)
  rw [xblk_apply m c t q k hq, yblk_apply m c t q k hq]

/-! ## The carried entry, point by point -/

/-- At the first point the entry becomes the zero word plus the point's block sum. -/
theorem at_first (c : Dev nD) (t : Fin cfg0.N) (h0 : t.val % 32 = 0) (y : S1x1.Idx) :
    outsAt0 m c t.val t.isLt y = Ideal.ofBits .f32 0x00000000#32 + blockSum (rows m c) t.val := by
  rw [outsAt0_A m c t h0]
  refine (congrFun (Pieces.out_A (F := Ideal) c (grid0.coords t) (ms0_0 t) (hs0_0 t) (ms0_1 t) (hs0_1 t) (ms0_2 t) (hs0_2 t)
    (ms0_3 t) (hs0_3 t) ((hcond0_0 t).mpr h0) (xblk m c t) (yblk m c t) (wblk m c t)) y).trans ?_
  refine (Block.pay_apply (xblk m c t) (yblk m c t) (wblk m c t) (k0_pay1 (F := Ideal)) y).trans ?_
  rw [block_eq m c t]
  rfl

/-- At a later point it grows by the point's block sum. -/
theorem at_later (c : Dev nD) (t : Fin cfg0.N) (h0 : ¬t.val % 32 = 0) (y : S1x1.Idx) :
    outsAt0 m c t.val t.isLt y
      = outsAt0 m c (t.val - 1) (Nat.lt_of_le_of_lt (Nat.sub_le _ _) t.isLt) y + blockSum (rows m c) t.val := by
  rw [outsAt0_B m c t h0]
  refine (congrFun (Pieces.out_B (F := Ideal) c (grid0.coords t) (ms0_0 t) (hs0_0 t) (ms0_1 t) (hs0_1 t) (ms0_2 t) (hs0_2 t)
    (ms0_3 t) (hs0_3 t) (fun h => h0 ((hcond0_0 t).mp h)) (xblk m c t) (yblk m c t) (wblk m c t)
    (outsAt0 m c (t.val - 1) (Nat.lt_of_le_of_lt (Nat.sub_le _ _) t.isLt))) y).trans ?_
  refine (Block.pay_apply (xblk m c t) (yblk m c t) (wblk m c t)
    (outsAt0 m c (t.val - 1) (Nat.lt_of_le_of_lt (Nat.sub_le _ _) t.isLt)) y).trans ?_
  rw [block_eq m c t]

/-- After point `n` the entry is the zero word plus the block sums `0 … n`. -/
theorem entry_eq (c : Dev nD) : ∀ (n : ℕ) (h : n < cfg0.N) (y : S1x1.Idx),
    outsAt0 m c n h y = Ideal.ofBits .f32 0x00000000#32 + ∑ s ∈ Finset.range (n + 1), blockSum (rows m c) s
  | 0, h, y => by
    refine (at_first m c ⟨0, h⟩ rfl y).trans ?_
    rw [Finset.sum_range_one]
  | n + 1, h, y => by
    have hN : n + 1 < 32 := lt_of_lt_of_eq h (show cfg0.N = 32 from N_0)
    refine (at_later m c ⟨n + 1, h⟩ (by show ¬(n + 1) % 32 = 0; omega) y).trans ?_
    show outsAt0 m c n _ y + blockSum (rows m c) (n + 1) = _
    rw [entry_eq c n _ y]
    exact running_succ _ _ n

/-- The loss of core `c`'s arguments. -/
abbrev loss (c : Dev nD) : EReal := total (X m c) (Y m c) (W m c)

/-- After the last point the entry is the loss. -/
theorem entry_last (c : Dev nD) (h : 31 < cfg0.N) (y : S1x1.Idx) : outsAt0 m c 31 h y = loss m c := by
  rw [entry_eq m c 31 h y]
  show _ + ∑ s ∈ Finset.range 32, blockSum (rows m c) s = _
  rw [sum_blocks]
  rfl

/-! ## The result array and the scalar read from it -/

/-- The last point. -/
abbrev tLast : Fin cfg0.N := ⟨31, by rw [show cfg0.N = 32 from N_0]; decide⟩

/-- The one write-back, at the last point, writes the loss. -/
theorem flushed_eq (c : Dev nD) (t : Fin cfg0.N) (hf : (cfg0.win 3).flush t = true) :
    (dats m 0 c).flushed 3 t = ((cfg0.win 3).blk t).view.read (Elt Ideal) (fun _ => loss m c) := by
  have hN : t.val < 32 := lt_of_lt_of_eq t.isLt (show cfg0.N = 32 from N_0)
  have h31 : t.val = 31 := by have := (flush0_3 t).mp hf; omega
  obtain ⟨n, hn⟩ := t
  dsimp only at h31
  subst h31
  funext j
  rw [View.read_apply]
  show (dats m 0 c).after 3 ⟨31, hn⟩ _ = loss m c
  rw [after0_3]
  exact entry_last m c hn _

/-- So the 1 × 1 result array ends holding the loss. -/
theorem final (c : Dev nD) : (dats m 0 c).arrAt 3 cfg0.N = fun _ => loss m c :=
  (dats m 0 c).arrAt_eq_of_cover 3 (fun _ => loss m c) (flushed_eq m c) fun i =>
    ⟨tLast, (flush0_3 tLast).mpr rfl, by
      show i ∈ ((View.whole main_v0).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index tLast 0 * win0_3.size 0 ≤ (i 0 : Nat) ∧ (i 0 : Nat) < win0_3.index tLast 0 * win0_3.size 0 + win0_3.xsize (grid0.coords tLast) 0
        rw [show win0_3.index tLast 0 * win0_3.size 0 = 0 from by decide +kernel, show win0_3.xsize (grid0.coords tLast) 0 = 1 from by decide +kernel]
        omega
      | ⟨1, _⟩ =>
        show win0_3.index tLast 1 * win0_3.size 1 ≤ (i 1 : Nat) ∧ (i 1 : Nat) < win0_3.index tLast 1 * win0_3.size 1 + win0_3.xsize (grid0.coords tLast) 1
        rw [show win0_3.index tLast 1 * win0_3.size 1 = 0 from by decide +kernel, show win0_3.xsize (grid0.coords tLast) 1 = 1 from by decide +kernel]
        omega⟩

/-- The reshape after the call reads the array's entry as the scalar. -/
theorem tail_eq (c : Dev nD) :
    Pipeline.afterTail₀ cfgs (dats m) 0 (V0 m) [hostOps1] c main_v1 = fun _ => loss m c := by
  unfold Pipeline.afterTail₀
  show StableHlo.after hostOps1 _ (Proc.devRef .tc main_v1) = _
  after_results
  rw [Pipeline.withArrays_arr spec0 launch0.win.arr_inj c _ _ 3, final m c]
  rfl

/-- The result buffer is no array of the call and is not scoped. -/
theorem result_rest : main_v1 ∈ Pipeline.restRefs sig spec0 :=
  Pipeline.mem_restRefs_of main_v1 rfl (by decide)

/-- The run, read: the scalar result at the loss, the arguments unchanged. -/
theorem run : θ_run defs (onTc (τ := τ) (main (F := Ideal))) ⟨m, fun _ => 0, ρ⟩ fun r => ∀ c : Dev nD,
      r.2.mem ((c : Thread nD τ).loc main_v1) = (fun _ => loss m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).2 main_v1 result_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Loss

end
-- ==== Proof.lean ====
/-
  The claim: a masked, weighted smooth-L1 loss computed by a gridded kernel equals its plain reference.

  Both programs take two 4096 × 8192 matrices and a 4096 × 1 column of integer weights. Per row they sum the
  smooth-L1 terms of the entries' differences, take the row's mean (the kernel multiplies by `2⁻¹³`, the reference
  divides by 8192: one number over the extended reals, since `2⁻¹³` is exactly `1/8192`), multiply by the row's weight
  where it is positive (else take zero), and add up the 4096 rows. The kernel adds them in 32 blocks of 128
  consecutive rows into one carried entry, block after block, and a reshape reads that entry as the scalar result;
  the reference adds them in one sum. Addition of extended reals is commutative and associative, so the two groupings
  agree; no finiteness of the inputs is used.

  The three frames are the generated ones (the reference's is its generated run with the result dropped); the
  idealization rewrote nothing, so `preserves` is `True`; `algebraic` states both runs' results as the same function
  `MaskedHuber.total` of the arguments.
-/
import proofs.«159005_j88596585382237_1_alg».proof.Defs
import proofs.«159005_j88596585382237_1_alg».proof.Proof.Gen.Kernel
import proofs.«159005_j88596585382237_1_alg».proof.Proof.Gen.Kernel.Skeleton
import proofs.«159005_j88596585382237_1_alg».proof.Proof.Gen.Kernel.Launch
import proofs.«159005_j88596585382237_1_alg».proof.Proof.Gen.Kernel.Points
import proofs.«159005_j88596585382237_1_alg».proof.Proof.Gen.Kernel.Frame
import proofs.«159005_j88596585382237_1_alg».proof.Proof.Gen.KernelIdeal
import proofs.«159005_j88596585382237_1_alg».proof.Proof.Gen.KernelIdeal.Skeleton
import proofs.«159005_j88596585382237_1_alg».proof.Proof.Gen.KernelIdeal.Launch
import proofs.«159005_j88596585382237_1_alg».proof.Proof.Gen.KernelIdeal.Points
import proofs.«159005_j88596585382237_1_alg».proof.Proof.Gen.KernelIdeal.Frame
import proofs.«159005_j88596585382237_1_alg».proof.Proof.Gen.ReferenceIdeal
import proofs.«159005_j88596585382237_1_alg».proof.Proof.ReferenceRun
import proofs.«159005_j88596585382237_1_alg».proof.Proof.ReferenceRead
import proofs.«159005_j88596585382237_1_alg».proof.Proof.Gen.Pre_finite_inputs
import proofs.«159005_j88596585382237_1_alg».proof.Proof.MaskedHuber
import proofs.«159005_j88596585382237_1_alg».proof.Proof.Reference
import proofs.«159005_j88596585382237_1_alg».proof.Proof.KernelValue
import Idealize.ShloMosaic.Adequacy
import Idealize.ShloMosaic.Init

noncomputable section

namespace Cert.Proof

open Idealize.ShloMosaic Idealize.SL.Sem

/-- Both idealized programs, run from memories that agree on the arguments, end with the scalar result at the loss
    of those arguments. -/
theorem algebraic : Cert.algebraic_KernelIdeal_ReferenceIdeal := by
  intro m ρ m' ρ' _ hagree
  refine ⟨fun c => (fun _ => Cert.KernelIdeal.Loss.loss m c), Cert.KernelIdeal.Loss.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v20_eq]
  funext i
  rw [Cert.ReferenceIdeal.RefValue.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  algebraic⟩

end Cert.Proof

end
